-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x64 : Shape := ⟨3, ![64, 1024, 64]⟩
abbrev S64x1024 : Shape := ⟨2, ![64, 1024]⟩
abbrev S_ : Shape := ⟨0, ![]⟩

class Facts : Prop where
  bcast_S_S64x1024x64 : S_.BroadcastsInDim S64x1024x64 (![] : Fin 0 → Fin S64x1024x64.rank)
  reducesTo_S64x1024x64_S_d0_1_2 : S64x1024x64.ReducesTo [0, 1, 2] S_
  h_S_ : 0 < S_.numel

variable [Facts]

def fn {F : FTy → Type} [FloatOps F] (main_arg0 : FVec F S64x1024x64 .f32) (main_arg1 : FVec F S64x1024x64 .f32) (main_arg2 : IVec S64x1024 32) : IVec S_ 1 :=
  let main_v0 : FVec F S64x1024x64 .f32 := Host.absf main_arg0
  let main_cst : FVec F S_ .f32 := constant S_ .f32 0x7F800000#32
  let main_v1 : FVec F S64x1024x64 .f32 := broadcastInDim S64x1024x64 ![] bcast_S_S64x1024x64 main_cst
  let main_v2 : IVec S64x1024x64 1 := cmpf .olt main_v0 main_v1
  let main_c : IVec S_ 1 := constantI S_ 1 1#1
  let main_v3 : IVec S_ 1 := (fun x v => Host.reduce IntOp.andi x v reducesTo_S64x1024x64_S_d0_1_2 h_S_) main_v2 main_c
  let main_v4 : FVec F S64x1024x64 .f32 := Host.absf main_arg1
  let main_cst_0 : FVec F S_ .f32 := constant S_ .f32 0x7F800000#32
  let main_v5 : FVec F S64x1024x64 .f32 := broadcastInDim S64x1024x64 ![] bcast_S_S64x1024x64 main_cst_0
  let main_v6 : IVec S64x1024x64 1 := cmpf .olt main_v4 main_v5
  let main_c_1 : IVec S_ 1 := constantI S_ 1 1#1
  let main_v7 : IVec S_ 1 := (fun x v => Host.reduce IntOp.andi x v reducesTo_S64x1024x64_S_d0_1_2 h_S_) main_v6 main_c_1
  let main_v8 : IVec S_ 1 := andi main_v3 main_v7
  main_v8
-- ==== Kernel.lean ====
abbrev S64x1024x64 : Shape := ⟨3, ![64, 1024, 64]⟩
abbrev S64x1024 : Shape := ⟨2, ![64, 1024]⟩
abbrev S64x1x1024 : Shape := ⟨3, ![64, 1, 1024]⟩
abbrev S64x1x1 : Shape := ⟨3, ![64, 1, 1]⟩
abbrev S1x1024x64 : Shape := ⟨3, ![1, 1024, 64]⟩
abbrev S1x1x1024 : Shape := ⟨3, ![1, 1, 1024]⟩
abbrev S1x1x1 : Shape := ⟨3, ![1, 1, 1]⟩
abbrev S1024x64 : Shape := ⟨2, ![1024, 64]⟩
abbrev S1x1024 : Shape := ⟨2, ![1, 1024]⟩
abbrev S1024 : Shape := ⟨1, ![1024]⟩
abbrev S1024x1 : Shape := ⟨2, ![1024, 1]⟩
abbrev S1024x1024 : Shape := ⟨2, ![1024, 1024]⟩
abbrev S1 : Shape := ⟨1, ![1]⟩
abbrev S1x1 : Shape := ⟨2, ![1, 1]⟩
abbrev S_ : Shape := ⟨0, ![]⟩

abbrev nBuf : Space → Nat
  | .hbm => 11
  | .vmem => 10
  | .smem => 0
  | _ => 0

abbrev bufTy : (tb : Table) → Fin (tcTables nBuf tb) → BufTy
  | .hbm, ⟨0, _⟩ => ⟨S64x1024x64, .f32⟩
  | .hbm, ⟨1, _⟩ => ⟨S64x1024x64, .f32⟩
  | .hbm, ⟨2, _⟩ => ⟨S64x1024, .i32⟩
  | .hbm, ⟨3, _⟩ => ⟨S64x1x1024, .i32⟩
  | .hbm, ⟨4, _⟩ => ⟨S64x1x1, .f32⟩
  | .hbm, ⟨5, _⟩ => ⟨S64x1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S1x1024x64, .f32⟩
  | .local _ .vmem, ⟨1, _⟩ => ⟨S1x1024x64, .f32⟩
  | .local _ .vmem, ⟨2, _⟩ => ⟨S1x1024x64, .f32⟩
  | .local _ .vmem, ⟨3, _⟩ => ⟨S1x1024x64, .f32⟩
  | .local _ .vmem, ⟨4, _⟩ => ⟨S1x1x1024, .i32⟩
  | .local _ .vmem, ⟨5, _⟩ => ⟨S1x1x1024, .i32⟩
  | .local _ .vmem, ⟨6, _⟩ => ⟨S1x1x1, .f32⟩
  | .local _ .vmem, ⟨7, _⟩ => ⟨S1x1x1, .f32⟩
  | .local _ .vmem, ⟨8, _⟩ => ⟨S1x1x1, .f32⟩
  | .local _ .vmem, ⟨9, _⟩ => ⟨S1x1x1, .f32⟩
  | _, _ => ⟨S64x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S64x1024_S64x1x1024_0_2 : S64x1024.BroadcastsInDim S64x1x1024 (![0, 2] : Fin 2 → Fin S64x1x1024.rank)
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  reduces_S1024x64_S1024 : S1024x64.Reduces [1] S1024
  shapeCasts_S1024_S1024x1 : S1024.ShapeCasts S1024x1
  broadcasts_S1024x1_S1024x64 : S1024x1.Broadcasts S1024x64
  bitsLt_bf16_f32 : FTy.bits .bf16 < FTy.bits .f32
  reduces_S1024x1024_S1024 : S1024x1024.Reduces [0] S1024
  shapeCasts_S1024_S1x1024 : S1024.ShapeCasts S1x1024
  reduces_S1x1024_S1 : S1x1024.Reduces [1] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S64x1x1_S_d0_1_2 : S64x1x1.ReducesTo [0, 1, 2] S_
  h_S_ : 0 < S_.numel
  dot_S1024x64_S1024x64_S1024x1024_1_1_0_0_n_n_wf : DotDims.WF S1024x64 S1024x64 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S64x1024x64.size a
  hwx0_0 : ∀ i : grid0.Coords, EltTy.bits .f32 = 32 ∨ (Rect.block (s := S64x1024x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S64x1024x64.size a
  hwx0_1 : ∀ i : grid0.Coords, EltTy.bits .f32 = 32 ∨ (Rect.block (s := S64x1024x64) S1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S64x1x1024.size a
  hwx0_2 : ∀ i : grid0.Coords, EltTy.bits .i32 = 32 ∨ (Rect.block (s := S64x1x1024) S1x1x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S64x1x1.size a
  hwx0_3 : ∀ i : grid0.Coords, EltTy.bits .f32 = 32 ∨ (Rect.block (s := S64x1x1) S1x1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S64x1x1.size a
  hwx0_4 : ∀ i : grid0.Coords, EltTy.bits .f32 = 32 ∨ (Rect.block (s := S64x1x1) S1x1x1.size (cc0_transform_4 i) (hinb0_4 i)).WholeWords (EltTy.packing .f32)

variable [Facts₀]

def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_arg0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1x1x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x1024x64 : Shape := ⟨3, ![64, 1024, 64]⟩
abbrev S64x1024 : Shape := ⟨2, ![64, 1024]⟩
abbrev S_ : Shape := ⟨0, ![]⟩
abbrev S64x1024x1 : Shape := ⟨3, ![64, 1024, 1]⟩
abbrev S64x1024x1024 : Shape := ⟨3, ![64, 1024, 1024]⟩

abbrev nBuf : Space → Nat
  | .hbm => 36
  | .vmem => 0
  | .smem => 0
  | _ => 0

abbrev bufTy : (tb : Table) → Fin (tcTables nBuf tb) → BufTy
  | .hbm, ⟨0, _⟩ => ⟨S64x1024x64, .f32⟩
  | .hbm, ⟨1, _⟩ => ⟨S64x1024x64, .f32⟩
  | .hbm, ⟨2, _⟩ => ⟨S64x1024, .i32⟩
  | .hbm, ⟨3, _⟩ => ⟨S64x1024x64, .f32⟩
  | .hbm, ⟨4, _⟩ => ⟨S_, .f32⟩
  | .hbm, ⟨5, _⟩ => ⟨S64x1024, .f32⟩
  | .hbm, ⟨6, _⟩ => ⟨S64x1024x1, .f32⟩
  | .hbm, ⟨7, _⟩ => ⟨S64x1024x1, .f32⟩
  | .hbm, ⟨8, _⟩ => ⟨S_, .f32⟩
  | .hbm, ⟨9, _⟩ => ⟨S64x1024x1, .f32⟩
  | .hbm, ⟨10, _⟩ => ⟨S64x1024x1, .f32⟩
  | .hbm, ⟨11, _⟩ => ⟨S64x1024x64, .f32⟩
  | .hbm, ⟨12, _⟩ => ⟨S64x1024x64, .f32⟩
  | .hbm, ⟨13, _⟩ => ⟨S64x1024x64, .f32⟩
  | .hbm, ⟨14, _⟩ => ⟨S_, .f32⟩
  | .hbm, ⟨15, _⟩ => ⟨S64x1024, .f32⟩
  | .hbm, ⟨16, _⟩ => ⟨S64x1024x1, .f32⟩
  | .hbm, ⟨17, _⟩ => ⟨S64x1024x1, .f32⟩
  | .hbm, ⟨18, _⟩ => ⟨S_, .f32⟩
  | .hbm, ⟨19, _⟩ => ⟨S64x1024x1, .f32⟩
  | .hbm, ⟨20, _⟩ => ⟨S64x1024x1, .f32⟩
  | .hbm, ⟨21, _⟩ => ⟨S64x1024x64, .f32⟩
  | .hbm, ⟨22, _⟩ => ⟨S64x1024x64, .f32⟩
  | .hbm, ⟨23, _⟩ => ⟨S64x1024x1024, .f32⟩
  | .hbm, ⟨24, _⟩ => ⟨S_, .f32⟩
  | .hbm, ⟨25, _⟩ => ⟨S64x1024, .f32⟩
  | .hbm, ⟨26, _⟩ => ⟨S_, .f32⟩
  | .hbm, ⟨27, _⟩ => ⟨S64x1024, .f32⟩
  | .hbm, ⟨28, _⟩ => ⟨S64x1024, .f32⟩
  | .hbm, ⟨29, _⟩ => ⟨S64x1024, .f32⟩
  | .hbm, ⟨30, _⟩ => ⟨S64x1024, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | _, _ => ⟨S64x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]

class Facts₀ : Prop where
  reducesTo_S64x1024x64_S64x1024_d2 : S64x1024x64.ReducesTo [2] S64x1024
  h_S_ : 0 < S_.numel
  bcast_S64x1024_S64x1024x1_0_1 : S64x1024.BroadcastsInDim S64x1024x1 (![0, 1] : Fin 2 → Fin S64x1024x1.rank)
  bcast_S_S64x1024x1 : S_.BroadcastsInDim S64x1024x1 (![] : Fin 0 → Fin S64x1024x1.rank)
  bcast_S64x1024x1_S64x1024x64_0_1_2 : S64x1024x1.BroadcastsInDim S64x1024x64 (![0, 1, 2] : Fin 3 → Fin S64x1024x64.rank)
  reducesTo_S64x1024x1024_S64x1024_d1 : S64x1024x1024.ReducesTo [1] S64x1024
  bcast_S_S64x1024 : S_.BroadcastsInDim S64x1024 (![] : Fin 0 → Fin S64x1024.rank)
  reducesTo_S64x1024_S_d0_1 : S64x1024.ReducesTo [0, 1] S_
  dot_S64x1024x64_S64x1024x64_S64x1024x1024_2_2_1_1_0_0_wf : DotDims.WF S64x1024x64 S64x1024x64 S64x1024x1024 [2] [2] [1] [1] [0] [0]

variable [Facts₀]

def dot_S64x1024x64_S64x1024x64_S64x1024x1024_2_2_1_1_0_0 : DotDims S64x1024x64 S64x1024x64 S64x1024x1024 where
  lhsContracting := [2]
  rhsContracting := [2]
  lhsNonContracting := [1]
  rhsNonContracting := [1]
  lhsBatch := [0]
  rhsBatch := [0]
  wf := dot_S64x1024x64_S64x1024x64_S64x1024x1024_2_2_1_1_0_0_wf

class Facts : Prop extends Facts₀ where

variable [Facts]
-- ==== Proof.Spec.lean ====
/-
  The masked mean of "one minus the best cosine" — the function both programs compute, over the extended reals.

  For each batch member b and each target position y, the cosine of the target row against every predicted row x is
  taken (each row divided by its norm, the norm floored by a small constant), the best cosine over x is kept, and
  the loss 1 − best is weighted by the position's integer mark. The result is the quotient of the total weighted
  loss by the total weight. The two programs differ only in how the two totals are grouped: the kernel adds up one
  batch member at a time and then adds the 64 partial totals; the reference adds over all pairs (b, y) at once.
  Addition of extended reals is commutative and associative, so the two groupings agree (`sum_pairs`), with no
  finiteness needed.
-/
import Idealize.ShloMosaic.PureOps.Ideal
import Idealize.ShloMosaic.PureOps.Ideal.Laws
import Idealize.ShloMosaic.Lib.ValueIdx

noncomputable section

namespace Cert.CosLoss

open Idealize.ShloMosaic Idealize.ShloMosaic.ValueIdx

/-- The floor put under a row's norm: the single-precision word nearest 1e-8, read at its exact value. -/
def normFloor : EReal := Ideal.ofBits .f32 0x322BCC77#32

/-- A row's floored norm: max (√(Σ_d v_d²), floor). -/
def normOf (v : Fin 64 → EReal) : EReal := max (Ideal.sqrt (∑ d : Fin 64, v d * v d)) normFloor

/-- A row divided by its floored norm, at coordinate d. -/
def unitOf (v : Fin 64 → EReal) (d : Fin 64) : EReal := Ideal.div (v d) (normOf v)

/-- The cosine of two rows: the inner product of their unit forms. -/
def cosOf (u v : Fin 64 → EReal) : EReal := ∑ d : Fin 64, unitOf u d * unitOf v d

/-- The best cosine of a target row v against the 1024 predicted rows U, as a fold of max from −∞. -/
def bestOf (U : Fin 1024 → Fin 64 → EReal) (v : Fin 64 → EReal) : EReal :=
  (Finset.univ : Finset (Fin 1024)).fold max (Ideal.ofBits .f32 0xFF800000#32) (fun x => cosOf (U x) v)

/-- A position's weight: its integer mark read as a real. -/
def weightOf (w : BitVec 32) : EReal := FloatOps.sitofp (F := Ideal) .f32 w

/-- A position's weighted loss: (1 − best cosine) · weight. -/
def lossOf (U : Fin 1024 → Fin 64 → EReal) (v : Fin 64 → EReal) (w : BitVec 32) : EReal :=
  (Ideal.ofBits .f32 0x3F800000#32 - bestOf U v) * weightOf w

/-- Row x of batch member b of a [64, 1024, 64] array. -/
def rowOf (P : (⟨3, ![64, 1024, 64]⟩ : Shape).Idx → EReal) (b : Fin 64) (x : Fin 1024) : Fin 64 → EReal :=
  fun d => P (ix3 b x d)

/-- The weighted loss of target position y of batch member b. -/
def lossAt (P Q : (⟨3, ![64, 1024, 64]⟩ : Shape).Idx → EReal) (M : (⟨2, ![64, 1024]⟩ : Shape).Idx → BitVec 32)
    (b : Fin 64) (y : Fin 1024) : EReal :=
  lossOf (rowOf P b) (rowOf Q b y) (M (ix2 b y))

/-- Batch member b's total weighted loss … -/
def numOf (P Q : (⟨3, ![64, 1024, 64]⟩ : Shape).Idx → EReal) (M : (⟨2, ![64, 1024]⟩ : Shape).Idx → BitVec 32)
    (b : Fin 64) : EReal := ∑ y : Fin 1024, lossAt P Q M b y

/-- … and its total weight. -/
def denOf (M : (⟨2, ![64, 1024]⟩ : Shape).Idx → BitVec 32) (b : Fin 64) : EReal :=
  ∑ y : Fin 1024, weightOf (M (ix2 b y))

/-- The masked mean: total weighted loss over total weight, the totals taken batch member by batch member. -/
def meanLoss (P Q : (⟨3, ![64, 1024, 64]⟩ : Shape).Idx → EReal) (M : (⟨2, ![64, 1024]⟩ : Shape).Idx → BitVec 32) : EReal :=
  Ideal.div (∑ b : Fin 64, numOf P Q M b) (∑ b : Fin 64, denOf M b)

/-- A sum over all pairs (b, y) is the sum over b of the sums over y. -/
theorem sum_pairs (f : (⟨2, ![64, 1024]⟩ : Shape).Idx → EReal) :
    ∑ i, f i = ∑ b : Fin 64, ∑ y : Fin 1024, f (ix2 b y) := sum_idx2 f

/-- So the totals taken over all pairs at once give the same mean. -/
theorem meanLoss_pairs (P Q : (⟨3, ![64, 1024, 64]⟩ : Shape).Idx → EReal) (M : (⟨2, ![64, 1024]⟩ : Shape).Idx → BitVec 32) :
    Ideal.div (∑ i : (⟨2, ![64, 1024]⟩ : Shape).Idx, lossAt P Q M (i 0) (i 1))
        (∑ i : (⟨2, ![64, 1024]⟩ : Shape).Idx, weightOf (M i))
      = meanLoss P Q M := by
  rw [sum_pairs, sum_pairs]
  rfl

end Cert.CosLoss

end
-- ==== Proof.RefStages.lean ====
/-
  The reference program's value, stage by stage, is the masked mean of "one minus the best cosine".

  Each stage is read at explicit coordinates (b, x, y, d). A row's divisor is its floored norm; a row divided by it is
  the row's unit form; the contraction over d of two unit forms is the cosine of a predicted row x and a target row y;
  the maximum over x, a fold of a commutative and associative operation from −∞ over that axis's coordinates, is the
  best cosine; (1 − best) times the position's weight is the weighted loss; and the quotient of the two totals over
  all pairs (b, y) is the mean, the totals being free to be grouped batch member by batch member.
-/
import proofs.«133074_j48911087566953_1_alg».proof.Proof.Gen.ReferenceIdeal.Run
import proofs.«133074_j48911087566953_1_alg».proof.Proof.Gen.ReferenceIdeal.Read
import proofs.«133074_j48911087566953_1_alg».proof.Proof.Spec
import Idealize.ShloMosaic.PureOps.Reduce
import Idealize.ShloMosaic.PureOps.Ideal.Laws
import Idealize.ShloMosaic.Lib.ValueIdx

noncomputable section

namespace Cert.RefSide

open Cert.ReferenceIdeal Cert.ReferenceIdeal.Gen Cert.ReferenceIdeal.Read Cert.CosLoss
open Idealize.ShloMosaic Idealize.ShloMosaic.ValueIdx

/-- The first input's type, and the second's: a [64, 1024, 64] array of extended reals. -/
abbrev Arr3 := (⟨S64x1024x64, .f32⟩ : BufTy).Contents (Elt Ideal)
/-- The mask's type: a [64, 1024] array of 32-bit words. -/
abbrev Arr2 := (⟨S64x1024, .i32⟩ : BufTy).Contents (Elt Ideal)

/-! ## The unit rows -/

/-- The divisor broadcast along a predicted row is that row's floored norm: the sum of squares from the zero word, its
    root, and the maximum with the floor, each read at the row's own coordinates. -/
theorem norm0_at (x0 : Arr3) (b : Fin 64) (x : Fin 1024) (d : Fin 64) :
    val_main_v6 (F := Ideal) x0 (ix3 b x d) = normOf (rowOf x0 b x) := by
  rw [val_main_v6_apply, val_main_v5_apply, val_main_v3_apply, val_main_v2_apply, val_main_v1_apply,
    val_main_v4_apply, val_main_cst_0_apply, val_main_cst_apply]
  have e : ∀ k : Fin 64, idx_main_v1 (idx_main_v2 (idx_main_v6 (ix3 b x d))) k = ix3 b x k := fun k =>
    funext fun a => Fin.ext (by match a with | ⟨0, _⟩ => rfl | ⟨1, _⟩ => rfl | ⟨2, _⟩ => rfl)
  simp only [e, val_main_v0_apply, Ideal.maximumf_def, Ideal.hostUnary_sqrt_def, Ideal.mulf_def, Ideal.ofBits_def,
    Ideal.ofBits_zero_f32, zero_add]
  rfl

/-- The same for a target row. -/
theorem norm1_at (x1 : Arr3) (b : Fin 64) (y : Fin 1024) (d : Fin 64) :
    val_main_v14 (F := Ideal) x1 (ix3 b y d) = normOf (rowOf x1 b y) := by
  rw [val_main_v14_apply, val_main_v13_apply, val_main_v11_apply, val_main_v10_apply, val_main_v9_apply,
    val_main_v12_apply, val_main_cst_2_apply, val_main_cst_1_apply]
  have e : ∀ k : Fin 64, idx_main_v9 (idx_main_v10 (idx_main_v14 (ix3 b y d))) k = ix3 b y k := fun k =>
    funext fun a => Fin.ext (by match a with | ⟨0, _⟩ => rfl | ⟨1, _⟩ => rfl | ⟨2, _⟩ => rfl)
  simp only [e, val_main_v8_apply, Ideal.maximumf_def, Ideal.hostUnary_sqrt_def, Ideal.mulf_def, Ideal.ofBits_def,
    Ideal.ofBits_zero_f32, zero_add]
  rfl

/-- A predicted row divided by its floored norm, coordinate by coordinate. -/
theorem unit0_at (x0 : Arr3) (b : Fin 64) (x : Fin 1024) (d : Fin 64) :
    val_main_v7 (F := Ideal) x0 (ix3 b x d) = unitOf (rowOf x0 b x) d := by
  rw [val_main_v7_apply, norm0_at, Ideal.hostDivf_def]
  rfl

/-- A target row divided by its floored norm, coordinate by coordinate. -/
theorem unit1_at (x1 : Arr3) (b : Fin 64) (y : Fin 1024) (d : Fin 64) :
    val_main_v15 (F := Ideal) x1 (ix3 b y d) = unitOf (rowOf x1 b y) d := by
  rw [val_main_v15_apply, norm1_at, Ideal.hostDivf_def]
  rfl

/-! ## The cosines -/

/-- The contraction at (b, x, y) is the inner product of predicted row x's unit form with target row y's. -/
theorem cos_at (x0 x1 : Arr3) (b : Fin 64) (x y : Fin 1024) :
    val_main_v16 (F := Ideal) x0 x1 (ix3 b x y) = cosOf (rowOf x0 b x) (rowOf x1 b y) := by
  rw [val_main_v16_apply]
  refine Finset.sum_congr rfl fun k _ => ?_
  have el : lidx_main_v16 (ix3 b x y) k = ix3 b x k :=
    funext fun a => Fin.ext (by match a with | ⟨0, _⟩ => rfl | ⟨1, _⟩ => rfl | ⟨2, _⟩ => rfl)
  have er : ridx_main_v16 (ix3 b x y) k = ix3 b y k :=
    funext fun a => Fin.ext (by match a with | ⟨0, _⟩ => rfl | ⟨1, _⟩ => rfl | ⟨2, _⟩ => rfl)
  rw [el, er, unit0_at, unit1_at]

/-! ## The best cosine -/

/-- The maximum over the predicted-row axis at (b, y): the reduce's body is commutative and associative, so it is the
    fold of max, from the initial value −∞, over the 1024 coordinates x of that axis; the index with x inserted is
    (b, x, y), where the contraction holds the cosine of rows x and y. -/
theorem best_at (x0 x1 : Arr3) (b : Fin 64) (y : Fin 1024) :
    val_main_v17 (F := Ideal) x0 x1 (ix2 b y) = bestOf (rowOf x0 b) (rowOf x1 b y) := by
  unfold val_main_v17
  have h : S64x1024x1024.Reduces [1] S64x1024 := by decide
  refine (Host.reduce_eq_fold_single (FloatOps.maximumf (F := Ideal) (φ := .f32)) (val_main_v16 (F := Ideal) x0 x1)
    (val_main_cst_3 (F := Ideal)) reducesTo_S64x1024x1024_S64x1024_d1 h h_S_ (ix2 b y)).trans ?_
  have hl : ∀ k : Fin 1024, h.lift (ix2 b y) k = ix3 b k y := fun k =>
    funext fun a => Fin.ext (by match a with | ⟨0, _⟩ => rfl | ⟨1, _⟩ => rfl | ⟨2, _⟩ => rfl)
  have hf : (val_main_v16 (F := Ideal) x0 x1 ∘ h.lift (ix2 b y))
      = fun x : Fin 1024 => cosOf (rowOf x0 b x) (rowOf x1 b y) :=
    funext fun k => (congrArg (val_main_v16 (F := Ideal) x0 x1) (hl k)).trans (cos_at x0 x1 b k y)
  rw [hf]
  rfl

/-! ## The weighted losses and the mean -/

/-- At (b, y) the product stage holds (1 − best cosine) · weight: target position y's weighted loss. -/
theorem loss_at_coords (x0 x1 : Arr3) (x2 : Arr2) (b : Fin 64) (y : Fin 1024) :
    val_main_v21 (F := Ideal) x0 x1 x2 (ix2 b y) = lossAt x0 x1 x2 b y := by
  rw [val_main_v21_apply, val_main_v19_apply, val_main_v18_apply, val_main_cst_4_apply, val_main_v20_apply, best_at]
  simp only [Ideal.subf_def, Ideal.mulf_def, Ideal.ofBits_def]
  unfold lossAt lossOf weightOf
  rfl

/-- The same at any index of the [64, 1024] array, every such index being the pair of its two coordinates. -/
theorem loss_at (x0 x1 : Arr3) (x2 : Arr2) (j : S64x1024.Idx) :
    val_main_v21 (F := Ideal) x0 x1 x2 j = lossAt x0 x1 x2 (j 0) (j 1) :=
  (congrArg (val_main_v21 (F := Ideal) x0 x1 x2) (eq_ix2 j)).trans (loss_at_coords x0 x1 x2 (j 0) (j 1))

/-- The reference's value: both totals start from the zero word and run over all pairs (b, y) at once; their terms are
    the weighted losses and the weights, so the quotient is the masked mean, whose totals may be grouped either way. -/
theorem result_eq
    (x0 x1 : (⟨Cert.ReferenceIdeal.S64x1024x64, .f32⟩ : BufTy).Contents (Elt Ideal))
    (x2 : (⟨Cert.ReferenceIdeal.S64x1024, .i32⟩ : BufTy).Contents (Elt Ideal)) :
    Cert.ReferenceIdeal.Read.val_main_v24 (F := Ideal) x0 x1 x2 = fun _ => Cert.CosLoss.meanLoss x0 x1 x2 := by
  funext i
  rw [val_main_v24_apply, val_main_v22_apply, val_main_v23_apply, val_main_cst_5_apply, val_main_cst_6_apply]
  simp only [Ideal.hostDivf_def, Ideal.ofBits_def, Ideal.ofBits_zero_f32, zero_add]
  have e1 : ∑ j : S64x1024.Idx, val_main_v21 (F := Ideal) x0 x1 x2 j
      = ∑ j : S64x1024.Idx, lossAt x0 x1 x2 (j 0) (j 1) :=
    Finset.sum_congr rfl fun j _ => loss_at x0 x1 x2 j
  have e2 : ∑ j : S64x1024.Idx, val_main_v20 (F := Ideal) x2 j = ∑ j : S64x1024.Idx, weightOf (x2 j) :=
    Finset.sum_congr rfl fun j _ => rfl
  rw [e1, e2]
  exact meanLoss_pairs x0 x1 x2

end Cert.RefSide

end
-- ==== Proof.LibColumn.lean ====
/-
  Two layout operations of "keepdims" columns read at an index.

  A reduction over the last axis of an [a, b] array that keeps the axis leaves an [a, 1] column. Two layout steps
  surround it: the length-a vector of row results is re-laid as the column (row i of the column is entry i of the
  vector), and the column is spread back over b columns (entry (p, c) of the result is the column's row p, whatever
  c). Both are stated for all sizes and any element type.
-/
import Idealize.ShloMosaic.Lib.Pipeline.Value
import Idealize.ShloMosaic.Lib.ValueIdx

namespace Cert.LibColumn

open Idealize.ShloMosaic Idealize.ShloMosaic.ValueIdx

variable {α : Type}

/-- A length-a vector re-laid as an [a, 1] column reads, at row i, the vector's entry i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column spread over b columns reads, at (p, c), the column's row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibColumn
-- ==== Proof.KerBody.lean ====
/-
  What the kernel's body computes from one batch member's blocks, read at the ideal values.

  At a grid point the body sees one batch member: a [1, 1024, 64] block of predicted rows, a [1, 1024, 64] block of
  target rows and a [1, 1, 1024] block of integer marks. It divides every row by its floored norm, multiplies the
  unit predicted rows against the unit target rows (rows by rows: entry (x, y) is the inner product of predicted row
  x and target row y), takes for each target y the maximum over x from −∞, and stores two numbers: the sum over y of
  (1 − best cosine) · mark, and the sum over y of the marks. These are the batch member's total weighted loss and
  total weight of the specification, stated here over the blocks.
-/
import proofs.«133074_j48911087566953_1_alg».proof.Proof.Gen.KernelIdeal.Skeleton
import proofs.«133074_j48911087566953_1_alg».proof.Proof.Spec
import proofs.«133074_j48911087566953_1_alg».proof.Proof.LibColumn
import Idealize.ShloMosaic.PureOps.Ideal.Laws
import Idealize.ShloMosaic.Lib.ValueIdx
import Idealize.ShloMosaic.Lib.ValueLayout
import Idealize.ShloMosaic.Lib.Pipeline.Value

noncomputable section

namespace Cert.KerSide

open Idealize.ShloMosaic Idealize.ShloMosaic.ValueIdx Cert.KernelIdeal Cert.KernelIdeal.Gen Cert.CosLoss Cert.LibColumn

/-! ## Unit rows -/

/-- Row r of a block, as a function of the coordinate d. -/
def blockRow (x : FVec Ideal S1x1024x64 .f32) (r : Fin 1024) : Fin 64 → EReal := fun d => x (ix3 (0 : Fin 1) r d)

/-- The sum of squares along a row of the block, as the body takes it (a lane reduction from the zero word). -/
theorem sumsq_at (x : FVec Ideal S1x1024x64 .f32) (hc : S1x1024x64.ShapeCasts S1024x64) (hr : S1024x64.Reduces [1] S1024)
    (hφ : FKind.Formats .f32) (hacc : (0x00000000#32 : BitVec 32) = FKind.add.neutral .f32 hφ) (r : Fin 1024) :
    multiReduction .add [1] S1024 (mulf (shapeCast S1024x64 x hc) (shapeCast S1024x64 x hc)) 0x00000000#32 hr hφ hacc (ix1 r)
      = ∑ d : Fin 64, blockRow x r d * blockRow x r d := by
  refine (Ideal.multiReduction_add_single _ _ hr hφ hacc (ix1 r)).trans ?_
  have term : ∀ k : Fin 64, mulf (shapeCast S1024x64 x hc) (shapeCast S1024x64 x hc) (hr.lift (ix1 r) k)
      = blockRow x r k * blockRow x r k := fun k => by
    have e : hr.lift (ix1 r) k = ix2 r k := funext fun a => Fin.ext (by
      match a with
      | ⟨0, _⟩ => rfl
      | ⟨1, _⟩ => rfl)
    rw [e, mulf_apply, shapeCast_1ab_ab_apply]
    rfl
  exact Finset.sum_congr rfl fun k _ => term k

/-- A block's row divided by its floored norm: entry (r, d) of the body's unit rows. -/
theorem unit_at (x : FVec Ideal S1x1024x64 .f32) (hc : S1x1024x64.ShapeCasts S1024x64) (hr : S1024x64.Reduces [1] S1024)
    (hφ : FKind.Formats .f32) (hacc : (0x00000000#32 : BitVec 32) = FKind.add.neutral .f32 hφ)
    (hc2 : S1024.ShapeCasts S1024x1) (hb : S1024x1.Broadcasts S1024x64) (r : Fin 1024) (d : Fin 64) :
    divf (shapeCast S1024x64 x hc)
        (broadcastTo S1024x64
          (maximumf
            (sqrt (shapeCast S1024x1
              (multiReduction .add [1] S1024 (mulf (shapeCast S1024x64 x hc) (shapeCast S1024x64 x hc)) 0x00000000#32 hr hφ hacc) hc2))
            (broadcast S1024x1 (Scalar.ofBits (F := Ideal) .f32 0x322BCC77#32))) hb) (ix2 r d)
      = unitOf (blockRow x r) d := by
  rw [divf_apply, broadcastTo_a1_ab_apply, maximumf_apply, shapeCast_1ab_ab_apply]
  unfold unitOf normOf
  refine congrArg (Ideal.div _) (congrArg₂ max ?_ rfl)
  show Ideal.sqrt (shapeCast S1024x1 _ hc2 (ix2 r (0 : Fin 1))) = _
  rw [shapeCast_a_a1_apply, sumsq_at]

/-! ## Rows by rows: the product of the unit rows -/

theorem rowsDot_lhs_0 (i : S1024x1024.Idx) (q : dot_S1024x64_S1024x64_S1024x1024_1_1_0_0_n_n.contr.Idx) :
    (dot_S1024x64_S1024x64_S1024x1024_1_1_0_0_n_n.lhsIdx i q 0).val = (i 0).val := by
  unfold DotDims.lhsIdx
  rw [dif_neg (show ¬(0 : Fin S1024x64.rank) ∈ dot_S1024x64_S1024x64_S1024x1024_1_1_0_0_n_n.lhsBatch by decide), dif_pos (show (0 : Fin S1024x64.rank) ∈ dot_S1024x64_S1024x64_S1024x1024_1_1_0_0_n_n.lhsNonContracting by decide)]
  rfl
theorem rowsDot_lhs_1 (i : S1024x1024.Idx) (q : dot_S1024x64_S1024x64_S1024x1024_1_1_0_0_n_n.contr.Idx) :
    (dot_S1024x64_S1024x64_S1024x1024_1_1_0_0_n_n.lhsIdx i q 1).val = (q ⟨0, by decide⟩).val :=
  dot_S1024x64_S1024x64_S1024x1024_1_1_0_0_n_n.lhsIdx_val_of_single rfl i q
theorem rowsDot_rhs_0 (i : S1024x1024.Idx) (q : dot_S1024x64_S1024x64_S1024x1024_1_1_0_0_n_n.contr.Idx) :
    (dot_S1024x64_S1024x64_S1024x1024_1_1_0_0_n_n.rhsIdx i q 0).val = (i 1).val := by
  unfold DotDims.rhsIdx
  rw [dif_neg (show ¬(0 : Fin S1024x64.rank) ∈ dot_S1024x64_S1024x64_S1024x1024_1_1_0_0_n_n.rhsBatch by decide), dif_pos (show (0 : Fin S1024x64.rank) ∈ dot_S1024x64_S1024x64_S1024x1024_1_1_0_0_n_n.rhsNonContracting by decide)]
  rfl
theorem rowsDot_rhs_1 (i : S1024x1024.Idx) (q : dot_S1024x64_S1024x64_S1024x1024_1_1_0_0_n_n.contr.Idx) :
    (dot_S1024x64_S1024x64_S1024x1024_1_1_0_0_n_n.rhsIdx i q 1).val = (q ⟨0, by decide⟩).val :=
  dot_S1024x64_S1024x64_S1024x1024_1_1_0_0_n_n.rhsIdx_val_of_single rfl i q

/-- The rows-by-rows product into the zero accumulator: entry (r, c) is the sum over d of a (r, d) · b (c, d). -/
theorem rowsDot_at (a b : FVec Ideal S1024x64 .bf16) (r c : Fin 1024) :
    matmul dot_S1024x64_S1024x64_S1024x1024_1_1_0_0_n_n none a b (constant S1024x1024 .f32 0x00000000#32) (ix2 r c)
      = ∑ d : Fin 64, a (ix2 r d) * b (ix2 c d) := by
  simp only [matmul]
  rw [Ideal.matmul_constant_zero_apply, ← Equiv.sum_comp (contrEquiv1 dot_S1024x64_S1024x64_S1024x1024_1_1_0_0_n_n 64 rfl rfl).symm]
  refine Finset.sum_congr rfl fun k _ => ?_
  have hk := contrEquiv1_symm_val dot_S1024x64_S1024x64_S1024x1024_1_1_0_0_n_n 64 rfl rfl k
  have el : dot_S1024x64_S1024x64_S1024x1024_1_1_0_0_n_n.lhsIdx (ix2 r c) ((contrEquiv1 dot_S1024x64_S1024x64_S1024x1024_1_1_0_0_n_n 64 rfl rfl).symm k) = ix2 r k := funext fun ax => Fin.ext (by
    match ax with
    | ⟨0, _⟩ => exact rowsDot_lhs_0 _ _
    | ⟨1, _⟩ => exact (rowsDot_lhs_1 _ _).trans hk)
  have er : dot_S1024x64_S1024x64_S1024x1024_1_1_0_0_n_n.rhsIdx (ix2 r c) ((contrEquiv1 dot_S1024x64_S1024x64_S1024x1024_1_1_0_0_n_n 64 rfl rfl).symm k) = ix2 c k := funext fun ax => Fin.ext (by
    match ax with
    | ⟨0, _⟩ => exact rowsDot_rhs_0 _ _
    | ⟨1, _⟩ => exact (rowsDot_rhs_1 _ _).trans hk)
  rw [el, er]

/-! ## The best cosine of a target row -/

/-- The maximum down a column of a [1024, 1024] array from −∞, as the body takes it: the fold of max over the rows. -/
theorem colmax_at (s : FVec Ideal S1024x1024 .f32) (hr : S1024x1024.Reduces [0] S1024) (hφ : FKind.Formats .f32)
    (hacc : (0xFF800000#32 : BitVec 32) = FKind.maximumf.neutral .f32 hφ) (c : Fin 1024) :
    multiReduction .maximumf [0] S1024 s 0xFF800000#32 hr hφ hacc (ix1 c)
      = (Finset.univ : Finset (Fin 1024)).fold max (Ideal.ofBits .f32 0xFF800000#32) (fun r => s (ix2 r c)) := by
  refine (Ideal.multiReduction_maximumf_single s _ hr hφ hacc (ix1 c)).trans ?_
  have e : (s ∘ hr.lift (ix1 c) : Fin 1024 → EReal) = fun r => s (ix2 r c) := funext fun r => by
    show s (hr.lift (ix1 c) r) = s (ix2 r c)
    refine congrArg s (funext fun ax => Fin.ext ?_)
    match ax with
    | ⟨0, _⟩ => rfl
    | ⟨1, _⟩ => rfl
  exact congrArg (fun f : Fin 1024 → EReal => (Finset.univ : Finset (Fin 1024)).fold max (Ideal.ofBits .f32 0xFF800000#32) f) e

/-! ## The two numbers the body stores -/

/-- The coordinate inserted on the reduced axis of a [1, 1024] array: position (u, y). -/
theorem lift_row (h : S1x1024.Reduces [1] S1) (u : Fin 1) (y : Fin 1024) : h.lift (ix1 u) y = ix2 u y :=
  funext fun ax => Fin.ext (by
    match ax with
    | ⟨0, _⟩ => rfl
    | ⟨1, _⟩ => rfl)

/-- The block's marks read as reals: position (u, y) of the body's weight row. -/
theorem marks_at (x2 : IVec S1x1x1024 32) (u : Fin 1) (y : Fin 1024) :
    k0_pay2 (F := Ideal) x2 (ix2 u y) = weightOf (x2 (ix3 (0 : Fin 1) u y)) := by
  unfold k0_pay2
  rw [sitofp_apply, shapeCast_1ab_ab_apply]
  rfl

/-- The second stored number: the sum of the block's marks. -/
theorem den_at (x2 : IVec S1x1x1024 32) (j : S1x1x1.Idx) :
    k0_pay1 (F := Ideal) (k0_pay3 (F := Ideal) x2) j = ∑ y : Fin 1024, weightOf (x2 (ix3 (0 : Fin 1) (0 : Fin 1) y)) := by
  obtain ⟨u0, u1, u2, rfl⟩ : ∃ (a b c : Fin 1), j = ix3 a b c := ⟨j 0, j 1, j 2, eq_ix3 j⟩
  obtain rfl : u2 = 0 := Subsingleton.elim _ _
  unfold k0_pay1 k0_pay3
  dsimp only
  refine (shapeCast_ab_1ab_apply _ _ u0 u1 (0 : Fin 1)).trans ?_
  refine (shapeCast_a_1a_apply _ _ u1 (0 : Fin 1)).trans ?_
  refine (Ideal.multiReduction_add_single _ _ _ _ _ (ix1 (0 : Fin 1))).trans ?_
  refine Finset.sum_congr rfl fun (y : Fin 1024) _ => ?_
  rw [lift_row]
  exact marks_at x2 0 y

/-- The first stored number: the sum over the target rows of (1 − best cosine) · mark. -/
theorem num_at (x0 x1 : FVec Ideal S1x1024x64 .f32) (x2 : IVec S1x1x1024 32) (j : S1x1x1.Idx) :
    k0_pay4 (F := Ideal) x0 x1 x2 j
      = ∑ y : Fin 1024, lossOf (blockRow x0) (blockRow x1 y) (x2 (ix3 (0 : Fin 1) (0 : Fin 1) y)) := by
  obtain ⟨u0, u1, u2, rfl⟩ : ∃ (a b c : Fin 1), j = ix3 a b c := ⟨j 0, j 1, j 2, eq_ix3 j⟩
  obtain rfl : u2 = 0 := Subsingleton.elim _ _
  unfold k0_pay4
  dsimp only
  refine (shapeCast_ab_1ab_apply _ _ u0 u1 (0 : Fin 1)).trans ?_
  refine (shapeCast_a_1a_apply _ _ u1 (0 : Fin 1)).trans ?_
  refine (Ideal.multiReduction_add_single _ _ _ _ _ (ix1 (0 : Fin 1))).trans ?_
  refine Finset.sum_congr rfl fun (y : Fin 1024) _ => ?_
  rw [lift_row]
  refine (mulf_apply _ _ _).trans ?_
  unfold lossOf
  refine congrArg₂ (· * ·) ?_ (marks_at x2 0 y)
  refine (subf_apply _ _ _).trans ?_
  refine congrArg₂ (· - ·) rfl ?_
  refine (shapeCast_a_1a_apply _ _ (0 : Fin 1) y).trans ?_
  refine (colmax_at _ _ _ _ y).trans ?_
  unfold bestOf
  refine congrArg (fun f : Fin 1024 → EReal => (Finset.univ : Finset (Fin 1024)).fold max (Ideal.ofBits .f32 0xFF800000#32) f)
    (funext fun r => ?_)
  refine (rowsDot_at _ _ r y).trans ?_
  unfold cosOf
  refine Finset.sum_congr rfl fun d _ => ?_
  refine congrArg₂ (· * ·) ?_ ?_
  · exact unit_at x0 _ _ _ _ _ _ r d
  · exact unit_at x1 _ _ _ _ _ _ y d

end Cert.KerSide

end
-- ==== Proof.KerArrays.lean ====
/-
  From one batch member's blocks to the whole result.

  The launch runs the body once per batch member b = 0 … 63: the three input windows hand it member b's predicted
  rows, target rows and marks (the marks array first given a unit middle axis), and the two output windows write
  back one number each into entry b of two [64, 1, 1] arrays. So after the launch the first array holds every
  member's total weighted loss and the second every member's total weight; the host then adds each array up from
  zero and divides. That quotient is the masked mean of the specification.
-/
import proofs.«133074_j48911087566953_1_alg».proof.Proof.Gen.KernelIdeal.Frame
import proofs.«133074_j48911087566953_1_alg».proof.Proof.KerBody
import Idealize.ShloMosaic.Lib.Pipeline.Value
import Idealize.ShloMosaic.Lib.StableHlo.Run

noncomputable section

namespace Cert.KerSide

open Idealize.ShloMosaic Idealize.ShloMosaic.TcCoe Idealize.SL.Sem Idealize.ShloMosaic.ValueIdx
open Idealize.ShloMosaic.Pipeline (Dat)
open Cert.KernelIdeal Cert.KernelIdeal.Gen Cert.CosLoss

variable (m : (ℓ : Loc nD τ sig) → Buf (Elt Ideal) ℓ) (ρ : Dev nD → PrngReg)

/-! ## The arrays and the blocks -/

/-- The predicted rows, the target rows and the marks, as launched. -/
abbrev predArr (c : Dev nD) : FVec Ideal S64x1024x64 .f32 := m ((c : Thread nD τ).loc main_arg0)
abbrev targArr (c : Dev nD) : FVec Ideal S64x1024x64 .f32 := m ((c : Thread nD τ).loc main_arg1)
abbrev markArr (c : Dev nD) : IVec S64x1024 32 := m ((c : Thread nD τ).loc main_arg2)

/-- The blocks the three input windows hand the body at grid point t. -/
abbrev predBlk (c : Dev nD) (t : Fin cfg0.N) : FVec Ideal S1x1024x64 .f32 := iblk m c 0 t
abbrev targBlk (c : Dev nD) (t : Fin cfg0.N) : FVec Ideal S1x1024x64 .f32 := iblk m c 1 t
abbrev markBlk (c : Dev nD) (t : Fin cfg0.N) : IVec S1x1x1024 32 := iblk m c 2 t

/-- The batch member grid point t works on. -/
def memberOf (t : Fin cfg0.N) : Fin 64 := ⟨t.val, Nat.lt_of_lt_of_eq t.isLt N_0⟩

/-- Every window's block index at point t is (t, 0, 0). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

/-- Row r of the predicted block at point t is row r of member t of the predicted array. -/
theorem predBlk_at (c : Dev nD) (t : Fin cfg0.N) (r : Fin 1024) (d : Fin 64) :
    predBlk m c t (ix3 (0 : Fin 1) r d) = predArr m c (ix3 (memberOf t) r d) := by
  obtain ⟨⟨e0, e1, e2⟩, -⟩ := idx_facts t
  unfold predBlk iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 3) * 1 + 1 * 0 = t.val; omega
  | ⟨1, _⟩ => show win0_0.index t (1 : Fin 3) * 1024 + 1 * r.val = r.val; omega
  | ⟨2, _⟩ => show win0_0.index t (2 : Fin 3) * 64 + 1 * d.val = d.val; omega

/-- The same for the target rows. -/
theorem targBlk_at (c : Dev nD) (t : Fin cfg0.N) (r : Fin 1024) (d : Fin 64) :
    targBlk m c t (ix3 (0 : Fin 1) r d) = targArr m c (ix3 (memberOf t) r d) := by
  obtain ⟨-, ⟨e0, e1, e2⟩, -⟩ := idx_facts t
  unfold targBlk iblk
  rw [View.read_apply]
  show V m c main_arg1 _ = _
  rw [V_main_arg1]
  refine congrArg (m ((c : Thread nD τ).loc main_arg1)) (funext fun a => Fin.ext ?_)
  match a with
  | ⟨0, _⟩ => show win0_1.index t (0 : Fin 3) * 1 + 1 * 0 = t.val; omega
  | ⟨1, _⟩ => show win0_1.index t (1 : Fin 3) * 1024 + 1 * r.val = r.val; omega
  | ⟨2, _⟩ => show win0_1.index t (2 : Fin 3) * 64 + 1 * d.val = d.val; omega

/-- The third window's array is the marks array given a unit middle axis by the host before the launch. -/
theorem marks3_eq (c : Dev nD) : (V m c main_v0 : S64x1x1024.Idx → BitVec 32)
    = broadcastInDim S64x1x1024 ![0, 2] Facts₀.bcast_S64x1024_S64x1x1024_0_2 (markArr m c) := by
  show StableHlo.after hostOps0 (fun b => m (c, b)) (Proc.devRef .tc main_v0) = _
  after_results

/-- So the marks block at point t holds member t's marks. -/
theorem markBlk_at (c : Dev nD) (t : Fin cfg0.N) (y : Fin 1024) :
    markBlk m c t (ix3 (0 : Fin 1) (0 : Fin 1) y) = markArr m c (ix2 (memberOf t) y) := by
  obtain ⟨-, -, ⟨e0, e1, e2⟩, -⟩ := idx_facts t
  unfold markBlk iblk
  rw [View.read_apply]
  show V m c main_v0 _ = _
  rw [marks3_eq]
  refine broadcastInDim_apply _ _ (markArr m c) _ (ix2 (memberOf t) y) (fun a => ?_)
  match a with
  | ⟨0, _⟩ =>
    show t.val = if (64 : Nat) = 1 then 0 else (win0_2.index t (0 : Fin 3) * 1 + 1 * 0)
    rw [if_neg (by decide)]; omega
  | ⟨1, _⟩ =>
    show y.val = if (1024 : Nat) = 1 then 0 else (win0_2.index t (2 : Fin 3) * 1024 + 1 * y.val)
    rw [if_neg (by decide)]; omega

/-! ## What each point writes back -/

/-- Every member's total weighted loss and total weight, laid out as the two [64, 1, 1] result arrays. -/
def numArr (c : Dev nD) : FVec Ideal S64x1x1 .f32 := fun i => numOf (predArr m c) (targArr m c) (markArr m c) (i 0)
def denArr (c : Dev nD) : FVec Ideal S64x1x1 .f32 := fun i => denOf (markArr m c) (i 0)

theorem hz3 : (![0, 0, 0] : Fin 3 → Nat) = fun _ => 0 := funext fun a => by fin_cases a <;> rfl

/-- The first number the body stores at point t is member t's total weighted loss. -/
theorem num_point (c : Dev nD) (t : Fin cfg0.N) (j : S1x1x1.Idx) :
    k0_pay4 (F := Ideal) (predBlk m c t) (targBlk m c t) (markBlk m c t) j
      = numOf (predArr m c) (targArr m c) (markArr m c) (memberOf t) := by
  rw [num_at]
  unfold numOf lossAt
  refine Finset.sum_congr rfl fun y _ => ?_
  have hP : blockRow (predBlk m c t) = rowOf (predArr m c) (memberOf t) :=
    funext fun r => funext fun d => predBlk_at m c t r d
  have hQ : blockRow (targBlk m c t) y = rowOf (targArr m c) (memberOf t) y := funext fun d => targBlk_at m c t y d
  rw [hP, hQ, markBlk_at]

/-- The second is member t's total weight. -/
theorem den_point (c : Dev nD) (t : Fin cfg0.N) (j : S1x1x1.Idx) :
    k0_pay1 (F := Ideal) (k0_pay3 (F := Ideal) (markBlk m c t)) j = denOf (markArr m c) (memberOf t) := by
  rw [den_at]
  unfold denOf
  refine Finset.sum_congr rfl fun y _ => ?_
  rw [markBlk_at]

/-- What point t writes back through the fourth window is block t of the array of weighted losses. -/
theorem flushed3_eq (c : Dev nD) (t : Fin cfg0.N) :
    (dats m 0 c).flushed 3 t = ((cfg0.win 3).blk t).view.read (Elt Ideal) (numArr m c) := by
  obtain ⟨-, -, -, ⟨e0, e1, e2⟩, -⟩ := idx_facts t
  show (cfg0.win 3).cut (grid0.coords t) ((dats m 0 c).after 3 t) = _
  rw [after0_3]
  unfold out0_3
  rw [View.canon_unit_zero hz3]
  simp only [View.ld_unit_zero (S := S1x1024x64) hz3, View.ld_unit_zero (S := S1x1x1024) hz3]
  funext j
  show k0_pay4 (F := Ideal) (predBlk m c t) (targBlk m c t) (markBlk m c t) j = numArr m c (((cfg0.win 3).blk t).view.emb j)
  rw [num_point]
  unfold numArr
  refine congrArg (numOf _ _ _) (Fin.ext ?_)
  show t.val = win0_3.index t (0 : Fin 3) * 1 + 1 * (j 0).val
  have : (j 0).val < 1 := (j 0).isLt
  omega

/-- And through the fifth, block t of the array of weights. -/
theorem flushed4_eq (c : Dev nD) (t : Fin cfg0.N) :
    (dats m 0 c).flushed 4 t = ((cfg0.win 4).blk t).view.read (Elt Ideal) (denArr m c) := by
  obtain ⟨-, -, -, -, ⟨e0, e1, e2⟩⟩ := idx_facts t
  show (cfg0.win 4).cut (grid0.coords t) ((dats m 0 c).after 4 t) = _
  rw [after0_4]
  unfold out0_4
  rw [View.canon_unit_zero hz3]
  simp only [View.ld_unit_zero (S := S1x1x1024) hz3]
  funext j
  show k0_pay1 (F := Ideal) (k0_pay3 (F := Ideal) (markBlk m c t)) j = denArr m c (((cfg0.win 4).blk t).view.emb j)
  rw [den_point]
  unfold denArr
  refine congrArg (denOf _) (Fin.ext ?_)
  show t.val = win0_4.index t (0 : Fin 3) * 1 + 1 * (j 0).val
  have : (j 0).val < 1 := (j 0).isLt
  omega

/-! ## The two result arrays after the launch -/

/-- An entry of a [64, 1, 1] array lies in point t's block exactly when its coordinates are in the block's ranges. -/
theorem mem_blk3 (t : Fin cfg0.N) (i : S64x1x1.Idx) :
    i ∈ ((cfg0.win 3).blk t).view.set ↔ ∀ a : Fin 3, win0_3.index t a * S1x1x1.size a ≤ (i a).val ∧ (i a).val < win0_3.index t a * S1x1x1.size a + S1x1x1.size a := by
  show i ∈ ((View.whole main_v1_0).slice (win0_3.rect t)).set ↔ _
  rw [View.set_slice_whole, Rect.mem_set_unit]
  exact Iff.rfl
theorem mem_blk4 (t : Fin cfg0.N) (i : S64x1x1.Idx) :
    i ∈ ((cfg0.win 4).blk t).view.set ↔ ∀ a : Fin 3, win0_4.index t a * S1x1x1.size a ≤ (i a).val ∧ (i a).val < win0_4.index t a * S1x1x1.size a + S1x1x1.size a := by
  show i ∈ ((View.whole main_v1_1).slice (win0_4.rect t)).set ↔ _
  rw [View.set_slice_whole, Rect.mem_set_unit]
  exact Iff.rfl

/-- Entry (b, 0, 0) is written back by point b. -/
theorem cover3 (i : S64x1x1.Idx) : ∃ t : Fin cfg0.N, (cfg0.win 3).flush t = true ∧ i ∈ ((cfg0.win 3).blk t).view.set := by
  have h0 : (i 0).val < 64 := (i 0).isLt
  have h1 : (i 1).val < 1 := (i 1).isLt
  have h2 : (i 2).val < 1 := (i 2).isLt
  obtain ⟨t, ht⟩ : ∃ t : Fin cfg0.N, t.val = (i 0).val := ⟨⟨(i 0).val, Nat.lt_of_lt_of_eq h0 N_0.symm⟩, rfl⟩
  obtain ⟨-, -, -, ⟨e0, e1, e2⟩, -⟩ := idx_facts t
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 1 ≤ (i 2).val ∧ (i 2).val < win0_3.index t (2 : Fin 3) * 1 + 1; omega
theorem cover4 (i : S64x1x1.Idx) : ∃ t : Fin cfg0.N, (cfg0.win 4).flush t = true ∧ i ∈ ((cfg0.win 4).blk t).view.set := by
  have h0 : (i 0).val < 64 := (i 0).isLt
  have h1 : (i 1).val < 1 := (i 1).isLt
  have h2 : (i 2).val < 1 := (i 2).isLt
  obtain ⟨t, ht⟩ : ∃ t : Fin cfg0.N, t.val = (i 0).val := ⟨⟨(i 0).val, Nat.lt_of_lt_of_eq h0 N_0.symm⟩, rfl⟩
  obtain ⟨-, -, -, -, ⟨e0, e1, e2⟩⟩ := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1 ≤ (i 1).val ∧ (i 1).val < win0_4.index t (1 : Fin 3) * 1 + 1; omega
  | ⟨2, _⟩ => show win0_4.index t (2 : Fin 3) * 1 ≤ (i 2).val ∧ (i 2).val < win0_4.index t (2 : Fin 3) * 1 + 1; omega

/-- After the launch the first result array holds every member's total weighted loss, the second every member's
    total weight. -/
theorem final3 (c : Dev nD) : (dats m 0 c).arrAt 3 cfg0.N = numArr m c :=
  (dats m 0 c).arrAt_eq_of_cover 3 (numArr m c) (fun t _ => flushed3_eq m c t) cover3
theorem final4 (c : Dev nD) : (dats m 0 c).arrAt 4 cfg0.N = denArr m c :=
  (dats m 0 c).arrAt_eq_of_cover 4 (denArr m c) (fun t _ => flushed4_eq m c t) cover4

/-! ## The host's totals and the quotient -/

/-- The entries of a [64, 1, 1] array are its 64 members. -/
def memberEquiv : (⟨3, ![64, 1, 1]⟩ : Shape).Idx ≃ Fin 64 where
  toFun i := i 0
  invFun b := ix3 b (0 : Fin 1) (0 : Fin 1)
  left_inv i := by
    have l1 : (i 1).val < 1 := (i 1).isLt
    have l2 : (i 2).val < 1 := (i 2).isLt
    have h1 : i 1 = (0 : Fin 1) := Fin.ext (by show (i 1).val = 0; omega)
    have h2 : i 2 = (0 : Fin 1) := Fin.ext (by show (i 2).val = 0; omega)
    have h := eq_ix3 i
    rw [h1, h2] at h
    exact h.symm
  right_inv _ := rfl

/-- So a sum over its entries is the sum over the members. -/
theorem sum_members (f : (⟨3, ![64, 1, 1]⟩ : Shape).Idx → EReal) :
    ∑ i, f i = ∑ b : Fin 64, f (ix3 b (0 : Fin 1) (0 : Fin 1)) := by
  rw [← Equiv.sum_comp memberEquiv.symm f]
  rfl

/-- The host's sum from zero of a [64, 1, 1] array is the sum of its 64 members. -/
theorem total_at (x : FVec Ideal S64x1x1 .f32) (h : S64x1x1.ReducesTo [0, 1, 2] S_) (h0 : 0 < S_.numel) (i : S_.Idx) :
    Host.reduceAdd x (constant (F := Ideal) S_ .f32 0x00000000#32) h h0 i = ∑ b : Fin 64, x (ix3 b (0 : Fin 1) (0 : Fin 1)) := by
  simp only [Host.reduceAdd, Ideal.hostReduceAdd_def]
  rw [Ideal.hostReduceAdd_total h (fun b => b.elim0) x _ i, constant_apply, Ideal.ofBits_zero_f32, zero_add, sum_members]

/-- The program's result: the quotient of the two totals is the masked mean. -/
theorem result_eq (c : Dev nD) :
    Pipeline.afterTail₀ cfgs (dats m) 0 (V0 m) [hostOps1] c main_v4
      = fun _ => meanLoss (predArr m c) (targArr m c) (markArr m c) := by
  unfold Pipeline.afterTail₀
  show StableHlo.after hostOps1 _ (Proc.devRef .tc main_v4) = _
  after_results
  have a3 : Pipeline.withArrays (cfgs 0).spec c (V0 m c) (fun w => (dats m 0 c).arrAt w (cfgs 0).N) (Proc.devRef .tc main_v1_0)
      = numArr m c := (Pipeline.withArrays_arr spec0 launch0.win.arr_inj c _ _ 3).trans (final3 m c)
  have a4 : Pipeline.withArrays (cfgs 0).spec c (V0 m c) (fun w => (dats m 0 c).arrAt w (cfgs 0).N) (Proc.devRef .tc main_v1_1)
      = denArr m c := (Pipeline.withArrays_arr spec0 launch0.win.arr_inj c _ _ 4).trans (final4 m c)
  rw [a3, a4]
  funext i
  show FloatOps.hostDivf (Host.reduceAdd (numArr m c) _ _ _ i) (Host.reduceAdd (denArr m c) _ _ _ i) = _
  rw [total_at, total_at]
  rfl

/-! ## The run, read -/

/-- Every weakly fair execution of the program ends with the result at the masked mean of the launched arrays and
    the three argument arrays unchanged. -/
theorem run : θ_run defs (onTc (τ := τ) (main (F := Ideal))) ⟨m, fun _ => 0, ρ⟩ fun r => ∀ c : Dev nD,
      r.2.mem ((c.tc : Thread nD τ).loc main_v4) = (fun _ => meanLoss (predArr m c) (targArr m c) (markArr m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v4 (Pipeline.mem_restRefs_of main_v4 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KerSide

end
-- ==== Proof.lean ====
/-
  The kernel computes, for 64 batch members, the masked mean of "one minus the best cosine" between 1024 target rows
  and 1024 predicted rows of 64 coordinates; the reference computes the same mean with plain array operations.

  Both programs divide every row by its floored norm (the same floor word on both sides), take inner products of the
  unit rows, keep for each target row the maximum over the predicted rows from −∞, weight 1 − maximum by the integer
  mark of the position, and divide the total weighted loss by the total weight. They differ only in the grouping of
  the two totals: the kernel sums one batch member at a time inside the launch and adds the 64 partial sums on the
  host, the reference sums over all (member, position) pairs at once. Sums of extended reals may be regrouped freely,
  so both results are the one function `Cert.CosLoss.meanLoss` of the three argument arrays; finiteness of the
  inputs is not used. The three frames are the generated ones (the reference's is its generated run with the result
  dropped), and the idealization rewrote nothing, so the preservation claim is trivial.
-/
import proofs.«133074_j48911087566953_1_alg».proof.Defs
import proofs.«133074_j48911087566953_1_alg».proof.Proof.Gen.Kernel
import proofs.«133074_j48911087566953_1_alg».proof.Proof.Gen.Kernel.Skeleton
import proofs.«133074_j48911087566953_1_alg».proof.Proof.Gen.Kernel.Launch
import proofs.«133074_j48911087566953_1_alg».proof.Proof.Gen.Kernel.Points
import proofs.«133074_j48911087566953_1_alg».proof.Proof.Gen.Kernel.Frame
import proofs.«133074_j48911087566953_1_alg».proof.Proof.Gen.KernelIdeal
import proofs.«133074_j48911087566953_1_alg».proof.Proof.Gen.KernelIdeal.Skeleton
import proofs.«133074_j48911087566953_1_alg».proof.Proof.Gen.KernelIdeal.Launch
import proofs.«133074_j48911087566953_1_alg».proof.Proof.Gen.KernelIdeal.Points
import proofs.«133074_j48911087566953_1_alg».proof.Proof.Gen.KernelIdeal.Frame
import proofs.«133074_j48911087566953_1_alg».proof.Proof.Gen.ReferenceIdeal
import proofs.«133074_j48911087566953_1_alg».proof.Proof.Gen.ReferenceIdeal.Run
import proofs.«133074_j48911087566953_1_alg».proof.Proof.Gen.ReferenceIdeal.Read
import proofs.«133074_j48911087566953_1_alg».proof.Proof.Gen.Pre_finite_inputs
import proofs.«133074_j48911087566953_1_alg».proof.Proof.Spec
import proofs.«133074_j48911087566953_1_alg».proof.Proof.RefStages
import proofs.«133074_j48911087566953_1_alg».proof.Proof.KerArrays
import Idealize.ShloMosaic.Adequacy
import Idealize.ShloMosaic.Init

noncomputable section

namespace Cert.Proof

open Idealize.ShloMosaic Idealize.SL.Sem

/-- The reference runs and keeps its arguments: its generated run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the three arrays, both programs end with the masked mean of those arrays. -/
theorem algebraic : Cert.algebraic_KernelIdeal_ReferenceIdeal := by
  intro m ρ m' ρ' _ hagree
  refine ⟨_, Cert.KerSide.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.RefSide.result_eq, (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
